-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S_ : Shape := ⟨0, ![]⟩

class Facts : Prop where
  bcast_S_S8x128x3x128 : S_.BroadcastsInDim S8x128x3x128 (![] : Fin 0 → Fin S8x128x3x128.rank)
  reducesTo_S8x128x3x128_S_d0_1_2_3 : S8x128x3x128.ReducesTo [0, 1, 2, 3] S_
  h_S_ : 0 < S_.numel
  bcast_S_S8x128x128x3 : S_.BroadcastsInDim S8x128x128x3 (![] : Fin 0 → Fin S8x128x128x3.rank)
  reducesTo_S8x128x128x3_S_d0_1_2_3 : S8x128x128x3.ReducesTo [0, 1, 2, 3] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S8x128x3x128 .f32) (main_arg1 : FVec F S8x128x128x3 .f32) (main_arg2 : FVec F S256x128 .f32) (main_arg3 : FVec F S128 .f32) : IVec S_ 1 :=
  let main_v0 : FVec F S8x128x3x128 .f32 := Host.absf main_arg0
  let main_cst : FVec F S_ .f32 := constant S_ .f32 0x7F800000#32
  let main_v1 : FVec F S8x128x3x128 .f32 := broadcastInDim S8x128x3x128 ![] bcast_S_S8x128x3x128 main_cst
  let main_v2 : IVec S8x128x3x128 1 := cmpf .olt main_v0 main_v1
  let main_c : IVec S_ 1 := constantI S_ 1 1#1
  let main_v3 : IVec S_ 1 := (fun x v => Host.reduce IntOp.andi x v reducesTo_S8x128x3x128_S_d0_1_2_3 h_S_) main_v2 main_c
  let main_v4 : FVec F S8x128x128x3 .f32 := Host.absf main_arg1
  let main_cst_0 : FVec F S_ .f32 := constant S_ .f32 0x7F800000#32
  let main_v5 : FVec F S8x128x128x3 .f32 := broadcastInDim S8x128x128x3 ![] bcast_S_S8x128x128x3 main_cst_0
  let main_v6 : IVec S8x128x128x3 1 := cmpf .olt main_v4 main_v5
  let main_c_1 : IVec S_ 1 := constantI S_ 1 1#1
  let main_v7 : IVec S_ 1 := (fun x v => Host.reduce IntOp.andi x v reducesTo_S8x128x128x3_S_d0_1_2_3 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S8x3x128x128 : Shape := ⟨4, ![8, 3, 128, 128]⟩
abbrev S8x128x128x128 : Shape := ⟨4, ![8, 128, 128, 128]⟩
abbrev S1x3x64x128 : Shape := ⟨4, ![1, 3, 64, 128]⟩
abbrev S1x3x128x128 : Shape := ⟨4, ![1, 3, 128, 128]⟩
abbrev S1x64x128x128 : Shape := ⟨4, ![1, 64, 128, 128]⟩
abbrev S128x128 : Shape := ⟨2, ![128, 128]⟩
abbrev S64x128x128 : Shape := ⟨3, ![64, 128, 128]⟩
abbrev S64x128 : Shape := ⟨2, ![64, 128]⟩
abbrev S1x1x64x128 : Shape := ⟨4, ![1, 1, 64, 128]⟩
abbrev S1x1x128x128 : Shape := ⟨4, ![1, 1, 128, 128]⟩
abbrev S64x128x1 : Shape := ⟨3, ![64, 128, 1]⟩
abbrev S64x1x128 : Shape := ⟨3, ![64, 1, 128]⟩
abbrev S1x128x128 : Shape := ⟨3, ![1, 128, 128]⟩
abbrev S1x1x128 : Shape := ⟨3, ![1, 1, 128]⟩

abbrev nBuf : Space → Nat
  | .hbm => 7
  | .vmem => 10
  | .smem => 0
  | _ => 0

abbrev bufTy : (tb : Table) → Fin (tcTables nBuf tb) → BufTy
  | .hbm, ⟨0, _⟩ => ⟨S8x128x3x128, .f32⟩
  | .hbm, ⟨1, _⟩ => ⟨S8x128x128x3, .f32⟩
  | .hbm, ⟨2, _⟩ => ⟨S256x128, .f32⟩
  | .hbm, ⟨3, _⟩ => ⟨S128, .f32⟩
  | .hbm, ⟨4, _⟩ => ⟨S8x3x128x128, .f32⟩
  | .hbm, ⟨5, _⟩ => ⟨S8x3x128x128, .f32⟩
  | .hbm, ⟨6, _⟩ => ⟨S8x128x128x128, .f32⟩
  | .local _ .vmem, ⟨0, _⟩ => ⟨S1x3x64x128, .f32⟩
  | .local _ .vmem, ⟨1, _⟩ => ⟨S1x3x64x128, .f32⟩
  | .local _ .vmem, ⟨2, _⟩ => ⟨S1x3x128x128, .f32⟩
  | .local _ .vmem, ⟨3, _⟩ => ⟨S1x3x128x128, .f32⟩
  | .local _ .vmem, ⟨4, _⟩ => ⟨S1x3x64x128, .f32⟩
  | .local _ .vmem, ⟨5, _⟩ => ⟨S1x3x64x128, .f32⟩
  | .local _ .vmem, ⟨6, _⟩ => ⟨S256x128, .f32⟩
  | .local _ .vmem, ⟨7, _⟩ => ⟨S128, .f32⟩
  | .local _ .vmem, ⟨8, _⟩ => ⟨S1x64x128x128, .f32⟩
  | .local _ .vmem, ⟨9, _⟩ => ⟨S1x64x128x128, .f32⟩
  | _, _ => ⟨S8x128x3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x64x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  transposes_S8x128x3x128_S8x3x128x128_0_2_1_3 : S8x128x3x128.Transposes [0, 2, 1, 3] S8x3x128x128
  transposes_S8x128x128x3_S8x3x128x128_0_3_1_2 : S8x128x128x3.Transposes [0, 3, 1, 2] S8x3x128x128
  inb_S256x128_S128x128_0_0 : ∀ a, (![0, 0] : Fin 2 → Nat) a + S128x128.size a ≤ S256x128.size a
  h_S128x128 : 0 < S128x128.numel
  bitsLt_bf16_f32 : FTy.bits .bf16 < FTy.bits .f32
  inb_S256x128_S128x128_128_0 : ∀ a, (![128, 0] : Fin 2 → Nat) a + S128x128.size a ≤ S256x128.size a
  inb_S128_S128_0 : ∀ a, (![0] : Fin 1 → Nat) a + S128.size a ≤ S128.size a
  h_S128 : 0 < S128.numel
  inb_S1x3x64x128_S1x1x64x128_0_0_0_0 : ∀ a, (![0, 0, 0, 0] : Fin 4 → Nat) a + S1x1x64x128.size a ≤ S1x3x64x128.size a
  h_S1x1x64x128 : 0 < S1x1x64x128.numel
  shapeCasts_S1x1x64x128_S64x128 : S1x1x64x128.ShapeCasts S64x128
  inb_S1x3x128x128_S1x1x128x128_0_0_0_0 : ∀ a, (![0, 0, 0, 0] : Fin 4 → Nat) a + S1x1x128x128.size a ≤ S1x3x128x128.size a
  h_S1x1x128x128 : 0 < S1x1x128x128.numel
  shapeCasts_S1x1x128x128_S128x128 : S1x1x128x128.ShapeCasts S128x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  shapeCasts_S128x128_S1x128x128 : S128x128.ShapeCasts S1x128x128
  broadcasts_S1x128x128_S64x128x128 : S1x128x128.Broadcasts S64x128x128
  inb_S1x3x64x128_S1x1x64x128_0_1_0_0 : ∀ a, (![0, 1, 0, 0] : Fin 4 → Nat) a + S1x1x64x128.size a ≤ S1x3x64x128.size a
  inb_S1x3x128x128_S1x1x128x128_0_1_0_0 : ∀ a, (![0, 1, 0, 0] : Fin 4 → Nat) a + S1x1x128x128.size a ≤ S1x3x128x128.size a
  inb_S1x3x64x128_S1x1x64x128_0_2_0_0 : ∀ a, (![0, 2, 0, 0] : Fin 4 → Nat) a + S1x1x64x128.size a ≤ S1x3x64x128.size a
  inb_S1x3x128x128_S1x1x128x128_0_2_0_0 : ∀ a, (![0, 2, 0, 0] : Fin 4 → Nat) a + S1x1x128x128.size a ≤ S1x3x128x128.size a
  shapeCasts_S128_S1x1x128 : S128.ShapeCasts S1x1x128
  broadcasts_S1x1x128_S64x128x128 : S1x1x128.Broadcasts S64x128x128
  inb_S1x64x128x128_S1x64x128x128_0_0_0_0 : ∀ a, (![0, 0, 0, 0] : Fin 4 → Nat) a + S1x64x128x128.size a ≤ S1x64x128x128.size a
  h_S1x64x128x128 : 0 < S1x64x128x128.numel
  shapeCasts_S1x64x128x128_S64x128x128 : S1x64x128x128.ShapeCasts S64x128x128
  shapeCasts_S64x128x128_S1x64x128x128 : S64x128x128.ShapeCasts S1x64x128x128
  dot_S64x128_S128x128_S64x128_1_0_0_1_n_n_wf : DotDims.WF S64x128 S128x128 S64x128 [1] [0] [0] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x64x128.size a ≤ S8x3x128x128.size a
  hwx0_0 : ∀ i : grid0.Coords, EltTy.bits .f32 = 32 ∨ (Rect.block (s := S8x3x128x128) S1x3x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x128x128.size a ≤ S8x3x128x128.size a
  hwx0_1 : ∀ i : grid0.Coords, EltTy.bits .f32 = 32 ∨ (Rect.block (s := S8x3x128x128) S1x3x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x64x128.size a ≤ S8x3x128x128.size a
  hwx0_2 : ∀ i : grid0.Coords, EltTy.bits .f32 = 32 ∨ (Rect.block (s := S8x3x128x128) S1x3x64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x128x128.size a ≤ S8x128x128x128.size a
  hwx0_5 : ∀ i : grid0.Coords, EltTy.bits .f32 = 32 ∨ (Rect.block (s := S8x128x128x128) S1x64x128x128.size (cc0_transform_5 i) (hinb0_5 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v0) S1x3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x3x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64x128x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x128x3x128 : Shape := ⟨4, ![8, 128, 3, 128]⟩
abbrev S8x128x128x3 : Shape := ⟨4, ![8, 128, 128, 3]⟩
abbrev S256x128 : Shape := ⟨2, ![256, 128]⟩
abbrev S128 : Shape := ⟨1, ![128]⟩
abbrev S128x128 : Shape := ⟨2, ![128, 128]⟩
abbrev S8x128x1x3x128 : Shape := ⟨5, ![8, 128, 1, 3, 128]⟩
abbrev S8x1x128x3x128 : Shape := ⟨5, ![8, 1, 128, 3, 128]⟩
abbrev S8x128x128x3x128 : Shape := ⟨5, ![8, 128, 128, 3, 128]⟩
abbrev S1x1x1x1x128 : Shape := ⟨5, ![1, 1, 1, 1, 128]⟩
abbrev S8x128x128x3x1 : Shape := ⟨5, ![8, 128, 128, 3, 1]⟩
abbrev S_ : Shape := ⟨0, ![]⟩
abbrev S8x128x128x128 : Shape := ⟨4, ![8, 128, 128, 128]⟩

abbrev nBuf : Space → Nat
  | .hbm => 21
  | .vmem => 0
  | .smem => 0
  | _ => 0

abbrev bufTy : (tb : Table) → Fin (tcTables nBuf tb) → BufTy
  | .hbm, ⟨0, _⟩ => ⟨S8x128x3x128, .f32⟩
  | .hbm, ⟨1, _⟩ => ⟨S8x128x128x3, .f32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S8x128x3x128, .f32⟩
  | .hbm, ⟨6, _⟩ => ⟨S128x128, .f32⟩
  | .hbm, ⟨7, _⟩ => ⟨S8x128x3x128, .f32⟩
  | .hbm, ⟨8, _⟩ => ⟨S8x128x1x3x128, .f32⟩
  | .hbm, ⟨9, _⟩ => ⟨S8x1x128x3x128, .f32⟩
  | .hbm, ⟨10, _⟩ => ⟨S8x128x128x3x128, .f32⟩
  | .hbm, ⟨11, _⟩ => ⟨S8x128x128x3x128, .f32⟩
  | .hbm, ⟨12, _⟩ => ⟨S8x128x128x3x128, .f32⟩
  | .hbm, ⟨13, _⟩ => ⟨S1x1x1x1x128, .f32⟩
  | .hbm, ⟨14, _⟩ => ⟨S8x128x128x3x128, .f32⟩
  | .hbm, ⟨15, _⟩ => ⟨S8x128x128x3x128, .f32⟩
  | .hbm, ⟨16, _⟩ => ⟨S8x128x128x3x1, .f32⟩
  | .hbm, ⟨17, _⟩ => ⟨S8x128x128x3x128, .f32⟩
  | .hbm, ⟨18, _⟩ => ⟨S8x128x128x3x128, .f32⟩
  | .hbm, ⟨19, _⟩ => ⟨S_, .f32⟩
  | .hbm, ⟨20, _⟩ => ⟨S8x128x128x128, .f32⟩
  | _, _ => ⟨S8x128x3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩

abbrev nD : Nat := 1
abbrev τ : Topo := Topo.v7x

variable {F : FTy → Type} [FloatOps F]

class Facts₀ : Prop where
  slices_S256x128_S128x128_0_0 : S256x128.Slices ![0, 0] S128x128
  slices_S256x128_S128x128_128_0 : S256x128.Slices ![128, 0] S128x128
  bcast_S8x128x3x128_S8x128x1x3x128_0_1_3_4 : S8x128x3x128.BroadcastsInDim S8x128x1x3x128 (![0, 1, 3, 4] : Fin 4 → Fin S8x128x1x3x128.rank)
  bcast_S8x128x3x128_S8x1x128x3x128_0_2_3_4 : S8x128x3x128.BroadcastsInDim S8x1x128x3x128 (![0, 2, 3, 4] : Fin 4 → Fin S8x1x128x3x128.rank)
  bcast_S8x128x1x3x128_S8x128x128x3x128_0_1_2_3_4 : S8x128x1x3x128.BroadcastsInDim S8x128x128x3x128 (![0, 1, 2, 3, 4] : Fin 5 → Fin S8x128x128x3x128.rank)
  bcast_S8x1x128x3x128_S8x128x128x3x128_0_1_2_3_4 : S8x1x128x3x128.BroadcastsInDim S8x128x128x3x128 (![0, 1, 2, 3, 4] : Fin 5 → Fin S8x128x128x3x128.rank)
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  bcast_S8x128x128x3_S8x128x128x3x1_0_1_2_3 : S8x128x128x3.BroadcastsInDim S8x128x128x3x1 (![0, 1, 2, 3] : Fin 4 → Fin S8x128x128x3x1.rank)
  bcast_S8x128x128x3x1_S8x128x128x3x128_0_1_2_3_4 : S8x128x128x3x1.BroadcastsInDim S8x128x128x3x128 (![0, 1, 2, 3, 4] : Fin 5 → Fin S8x128x128x3x128.rank)
  reducesTo_S8x128x128x3x128_S8x128x128x128_d3 : S8x128x128x3x128.ReducesTo [3] S8x128x128x128
  h_S_ : 0 < S_.numel
  dot_S8x128x3x128_S128x128_S8x128x3x128_3_0_012_1_n_n_wf : DotDims.WF S8x128x3x128 S128x128 S8x128x3x128 [3] [0] [0, 1, 2] [1] [] []

variable [Facts₀]

def dot_S8x128x3x128_S128x128_S8x128x3x128_3_0_012_1_n_n : DotDims S8x128x3x128 S128x128 S8x128x3x128 where
  lhsContracting := [3]
  rhsContracting := [0]
  lhsNonContracting := [0, 1, 2]
  rhsNonContracting := [1]
  lhsBatch := []
  rhsBatch := []
  wf := dot_S8x128x3x128_S128x128_S8x128x3x128_3_0_012_1_n_n_wf

class Facts : Prop extends Facts₀ where

variable [Facts]
-- ==== Proof.LibSharedFrame.lean ====
/-
  The frame run of a pipeline kernel whose windows may SHARE an array.

  The library's frame run (`Pipeline.θ_run_frame`) asks that the windows' arrays be pairwise distinct and that the
  proof data lend every array at the full share. A kernel handed ONE array through several input windows has neither:
  the buffer behind the shared array is split among its windows, each window's proof data naming its part of the share.
  `θ_run_frame_shared` is the same run for such a kernel: in place of the distinctness of the arrays and of the full
  shares it takes `hsplit`, which says how the buffers behind the arrays, each whole at the full share at the contents
  at the region's entry (`arrBufs`), make the proof data's `arrays` at point 0. Everything else is the frame run's:
  the class invariant `ΦA` (the scoped rest at some contents, the generator register at some state), no semaphore of
  the kernel's own, the user algebra the pipeline library's component alone, and the same conclusion `FramePost`
  (each window's array at `Dat.arrAt … N`, every bypassing buffer at its contents at the region's entry).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

section FrameShared

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- THE FRAME RUN of a kernel of the class whose windows may share arrays (`WinFacts₀`): as `θ_run_frame`, with
    `hsplit` — the buffers behind the arrays, whole at the entry contents `V`, yield the proof data's arrays at
    point 0 — in place of the arrays' distinctness, the full shares and the tie of the entry arrays to `V`. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs)) (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, arrBufs (cfgs p).spec c (V c) ⊢ (dats p c).arrays ((dats p c).arrAt · 0))
    (hΦ : ∀ c t, (dats p c).Φ t = ΦA (cfgs p).spec c) :
    θ_run (Pipeline.defs (fun q => Cfg.toPCfg (Val := Val) (cfgs q)) defs₀) (onTc main) (s₀ m g) (FramePost cfgs dats p V) := by
  classical
  exact θ_run_region_pf (fun q => (cfgs q).toPCfg (Val := Val)) (fun q => (cfgs q).toPCfg_adm) dats () hinj p hw
    (OwnSemFacts.none (cfgs p).spec) (PreFacts.none _) emb₁ defs₀ 𝒱₀ m g main hbody hne harr hstage howed
    (G := fun _ => iprop(emp)) (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain) (hsplit := hsplit) (hpf := fun _ k => k.elim0)
    (X := fun c => iprop(∃ r, prngReg c r)) (Y := fun c => iprop(∃ r, prngReg c r))
    (Z := fun c => unscopedRest (Ix := Unit) (Name := ℕ) (U := UR sig nD τ) (Lvl := ℕ) (cfgs p).spec c (V c))
    (hX := fun c => by
      rw [unscopedRestP_none]
      iintro ⟨HU, -, -, -, Hp, -⟩; imodintro
      isplitl [Hp]; · iexists _; iexact Hp
      iexact HU)
    (hin := fun c => by
      rw [hΦ]; unfold ΦA
      iintro ⟨Hp, -, Hr⟩
      isplitl [Hr] <;> iassumption)
    (hout := fun c => by
      rw [hΦ, ownSems0_none]; unfold ΦA
      iintro ⟨Hr, Hp⟩
      isplitl [Hp]; · iexact Hp
      isplitr; · iempintro
      iexact Hr)
    (QY := fun c s => ∀ b ∈ restRefs sig (cfgs p).spec, s.mem ((c.tc : Thread nD τ).loc b) = V c b)
    (hY := fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (hQ := fun s h c => ⟨fun w => (h c).1 w, (h c).2.2⟩)

end FrameShared

end Pipeline

end Idealize.ShloMosaic
-- ==== Proof.BlockI.lean ====
/-
  What one grid point writes, as a pure function of what it reads.

  At a grid point the body reads five blocks: xi, the three coordinate planes of the point's 64 query nodes
  (1×3×64×128); xj, the three coordinate planes of all 128 partner nodes of the batch (1×3×128×128); dd, the three
  planes of distance weights of the 64 query nodes against the 128 partners (1×3×64×128); w, the whole weight
  matrix (256×128), read as its upper and its lower 128 rows; and bias (128). It stores one 1×64×128×128 block.
  `blockOut` is that block: the body's arithmetic (the named payloads) applied to the twelve loaded rectangles.
-/
import proofs.«143016_j6451040878946_1_alg».proof.Proof.Gen.KernelIdeal.Skeleton
import Idealize.ShloMosaic.Lib.Pipeline.FrameBody

noncomputable section

namespace Cert.KernelIdeal.Hand

open Idealize.ShloMosaic Idealize.SL.Sem Cert.KernelIdeal
open Cert.KernelIdeal.Facts₀

variable {F : FTy → Type} [FloatOps F]

/-- The upper and the lower 128 rows of the weight matrix, and the whole bias. -/
abbrev rWlo : Rect S256x128 := Rect.unit (s := S256x128) ![0, 0] S128x128.size inb_S256x128_S128x128_0_0
abbrev rWhi : Rect S256x128 := Rect.unit (s := S256x128) ![128, 0] S128x128.size inb_S256x128_S128x128_128_0
abbrev rB : Rect S128 := Rect.unit (s := S128) ![0] S128.size inb_S128_S128_0
/-- Coordinate plane c of a 64-row block. -/
abbrev rI0 : Rect S1x3x64x128 := Rect.unit (s := S1x3x64x128) ![0, 0, 0, 0] S1x1x64x128.size inb_S1x3x64x128_S1x1x64x128_0_0_0_0
abbrev rI1 : Rect S1x3x64x128 := Rect.unit (s := S1x3x64x128) ![0, 1, 0, 0] S1x1x64x128.size inb_S1x3x64x128_S1x1x64x128_0_1_0_0
abbrev rI2 : Rect S1x3x64x128 := Rect.unit (s := S1x3x64x128) ![0, 2, 0, 0] S1x1x64x128.size inb_S1x3x64x128_S1x1x64x128_0_2_0_0
/-- Coordinate plane c of a 128-row block. -/
abbrev rJ0 : Rect S1x3x128x128 := Rect.unit (s := S1x3x128x128) ![0, 0, 0, 0] S1x1x128x128.size inb_S1x3x128x128_S1x1x128x128_0_0_0_0
abbrev rJ1 : Rect S1x3x128x128 := Rect.unit (s := S1x3x128x128) ![0, 1, 0, 0] S1x1x128x128.size inb_S1x3x128x128_S1x1x128x128_0_1_0_0
abbrev rJ2 : Rect S1x3x128x128 := Rect.unit (s := S1x3x128x128) ![0, 2, 0, 0] S1x1x128x128.size inb_S1x3x128x128_S1x1x128x128_0_2_0_0
/-- The whole output block. -/
abbrev rO : Rect S1x64x128x128 := Rect.unit (s := S1x64x128x128) ![0, 0, 0, 0] S1x64x128x128.size inb_S1x64x128x128_S1x64x128x128_0_0_0_0

/-- The block a grid point stores, from the five blocks it reads. -/
def blockOut (xi : Vec F S1x3x64x128 .f32) (xj : Vec F S1x3x128x128 .f32) (dd : Vec F S1x3x64x128 .f32)
    (w : Vec F S256x128 .f32) (bias : Vec F S128 .f32) : Vec F S1x64x128x128 .f32 :=
  Gen.k0_pay1 (View.ld bias rB)
    (Gen.k0_pay9 (Gen.k0_pay6 (View.ld dd rI0)) (View.ld dd rI1))
    (Gen.k0_pay10 (Gen.k0_pay3 (View.ld w rWhi)) (View.ld xj rJ2))
    (Gen.k0_pay11 (View.ld dd rI2))
    (Gen.k0_pay12 (Gen.k0_pay2 (View.ld w rWlo)) (Gen.k0_pay3 (View.ld w rWhi))
      (Gen.k0_pay5 (View.ld w rWlo) (View.ld w rWhi) (View.ld xi rI0) (View.ld xj rJ0) (View.ld dd rI0))
      (Gen.k0_pay7 (View.ld xi rI1)) (View.ld xj rJ1) (View.ld dd rI1) (View.ld xi rI2) (View.ld dd rI2))

end Cert.KernelIdeal.Hand

end
-- ==== Proof.FrameI.lean ====
/-
  The frame of the kernel program: it runs to the end, faults nowhere, and leaves its four arguments unchanged.

  The program transposes the feature array and the distance array on the host, then runs one pipelined region over a
  grid of 8 batches by 2 row tiles. The region has six windows: the transposed features TWICE (once tiled by the row
  tile, once whole per batch), the transposed distances tiled by the row tile, the weights and the bias whole, and
  the output tiled by batch and row tile. Because two input windows stage one array, that array's buffer is lent to
  the pipeline in two halves of its share, one per window; every other array is lent whole.
  The body reads its five input blocks, computes, and overwrites the whole output block; what it leaves there is
  `blockOut` of the blocks it read. It keeps nothing between points and owns nothing of its own.
-/
import proofs.«143016_j6451040878946_1_alg».proof.Proof.Gen.KernelIdeal.Launch
import proofs.«143016_j6451040878946_1_alg».proof.Proof.Gen.KernelIdeal.Skeleton
import proofs.«143016_j6451040878946_1_alg».proof.Proof.Gen.KernelIdeal.Points
import proofs.«143016_j6451040878946_1_alg».proof.Proof.BlockI
import proofs.«143016_j6451040878946_1_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host prefix -/

/-- Core c's buffers when the region is entered: the launch contents after the two host transposes. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program up to the region is the two transposes. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Neither transpose writes an argument: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, Finset.mem_singleton]
    repeat' apply And.intro
    all_goals exact StableHlo.devRef_ne_of_ne (by decide)))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the body leaves in the output window's buffer -/

/-- The output window's staging buffer after the body: its one store, which covers the buffer. -/
def out0_5 (x0 : Vec F S1x3x64x128 .f32) (x1 : Vec F S1x3x128x128 .f32) (x2 : Vec F S1x3x64x128 .f32)
    (x3 : Vec F S256x128 .f32) (x4 : Vec F S128 .f32) : Vec F S1x64x128x128 .f32 :=
  View.canon [⟨rO, blockOut x0 x1 x2 x3 x4⟩]

theorem cover0_5 (p0 : Vec F S1x64x128x128 .f32) (y : S1x64x128x128.Idx) :
    ∃ pc ∈ ([⟨rO, p0⟩] : List (View.Piece (Elt F) S1x64x128x128 .f32)), y ∈ pc.1.set :=
  View.cover_of_tiled [⟨rO, p0⟩] S1x64x128x128.size (by rfl) y

/-! ## The body's triple -/

set_option maxHeartbeats 2000000 in
/-- The body on whole staging memrefs, the inputs' at read contents and the output's at anything, runs to the
    continuation holding the inputs' as they were and the output's at `out0_5` of the inputs'. -/
theorem sound_kernel (c : Dev nD) (E : Set ℕ) (i : grid0.Coords)
    (arg2 : Memref sig .tc .vmem S1x3x64x128 .f32) (harg2 : arg2.IsWhole) (arg3 : Memref sig .tc .vmem S1x3x128x128 .f32) (harg3 : arg3.IsWhole)
    (arg4 : Memref sig .tc .vmem S1x3x64x128 .f32) (harg4 : arg4.IsWhole) (arg5 : Memref sig .tc .vmem S256x128 .f32) (harg5 : arg5.IsWhole)
    (arg6 : Memref sig .tc .vmem S128 .f32) (harg6 : arg6.IsWhole) (arg7 : Memref sig .tc .vmem S1x64x128x128 .f32) (harg7 : arg7.IsWhole)
    (x0 : Vec F S1x3x64x128 .f32) (x1 : Vec F S1x3x128x128 .f32) (x2 : Vec F S1x3x64x128 .f32) (x3 : Vec F S256x128 .f32) (x4 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out0_5 x0 x1 x2 x3 x4)) -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (cover0_5 _)

end Cert.KernelIdeal.Hand

end
-- ==== Proof.FrameRunI.lean ====
/-
  The run of the kernel program and its frame.

  The proof data name, per grid point, what each window's staging buffer holds after the body: an input window's
  block as read off its array, and for the output window `out0_5` of the five input blocks. The transposed feature
  array is staged by two windows, so its buffer is lent in two halves (the left half of the full share to the tiled
  window, the right half to the whole-batch window); `hsplit` is that split. Each input buffer holds its window's
  block at every point, fetched there or not (an unfetched window's block index has not moved).
-/
import proofs.«143016_j6451040878946_1_alg».proof.Proof.FrameI

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each input buffer holds its block -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = out0_5 (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' memrefs hold their blocks, so the body's triple applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The shared array's buffer, lent in two halves -/

/-- The distinct buffers behind the six windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v0) ↦{fullShare} W main_v0) ∗ (((c : Thread nD τ).loc main_v1) ↦{fullShare} W main_v1)
          ∗ (((c : Thread nD τ).loc main_arg2) ↦{fullShare} W main_arg2) ∗ (((c : Thread nD τ).loc main_arg3) ↦{fullShare} W main_arg3)
          ∗ (((c : Thread nD τ).loc main_v2) ↦{fullShare} W main_v2)) := by
  unfold Pipeline.arrBufs
  exact bigSep_eq_bigSepL_of_eq [main_v0, main_v1, main_arg2, main_arg3, main_v2] (by decide) (by decide) _

/-- Window w's array as the pipeline holds it at the region's entry: its whole buffer at the share q the proof
    data give it, at the entry contents. -/
theorem arr_pt (c : Dev nD) (w : Fin 6) (q : PosShare TreeShare) (hq : (dats m 0 c).share w = q) :
    (((cfg0.win w).arr.view.loc (c.tc : Thread nD τ)) ↦[(cfg0.win w).arr.view.set]{(dats m 0 c).share w} (dats m 0 c).arrAt w 0 : sProp 𝕄)
      = (((c.tc : Thread nD τ).loc (Pipeline.arrRef spec0 w)) ↦{q} V m c (Pipeline.arrRef spec0 w)) := by
  rw [(arr_whole0 w).set_eq_univ, hq]; rfl

theorem share0 (c : Dev nD) : (dats m 0 c).share 0 = fullShare.left := by
  unfold Dat.share; rw [if_neg (by decide)]; dsimp only [dats]
theorem share1 (c : Dev nD) : (dats m 0 c).share 1 = fullShare.right := by
  unfold Dat.share; rw [if_neg (by decide)]; dsimp only [dats]
theorem share2 (c : Dev nD) : (dats m 0 c).share 2 = fullShare := by
  unfold Dat.share; rw [if_neg (by decide)]; dsimp only [dats]
theorem share3 (c : Dev nD) : (dats m 0 c).share 3 = fullShare := by
  unfold Dat.share; rw [if_neg (by decide)]; dsimp only [dats]
theorem share4 (c : Dev nD) : (dats m 0 c).share 4 = fullShare := by
  unfold Dat.share; rw [if_neg (by decide)]; dsimp only [dats]
theorem share5 (c : Dev nD) : (dats m 0 c).share 5 = fullShare := by
  unfold Dat.share; rw [if_pos (by decide)]

/-- The pipeline's arrays at the region's entry, window by window: the transposed feature array twice, a half each. -/
theorem arrays0_eq (c : Dev nD) :
    ((dats m 0 c).arrays ((dats m 0 c).arrAt · 0) : sProp 𝕄)
      = iprop((((c.tc : Thread nD τ).loc main_v0) ↦{fullShare.left} V m c main_v0) ∗ (((c.tc : Thread nD τ).loc main_v0) ↦{fullShare.right} V m c main_v0)
          ∗ (((c.tc : Thread nD τ).loc main_v1) ↦{fullShare} V m c main_v1) ∗ (((c.tc : Thread nD τ).loc main_arg2) ↦{fullShare} V m c main_arg2)
          ∗ (((c.tc : Thread nD τ).loc main_arg3) ↦{fullShare} V m c main_arg3) ∗ (((c.tc : Thread nD τ).loc main_v2) ↦{fullShare} V m c main_v2)) := by
  unfold Dat.arrays
  rw [bigSep_W0]
  beta_reduce
  rw [arr_pt m c 0 _ (share0 m c), arr_pt m c 1 _ (share1 m c), arr_pt m c 2 _ (share2 m c), arr_pt m c 3 _ (share3 m c),
    arr_pt m c 4 _ (share4 m c), arr_pt m c 5 _ (share5 m c)]

theorem hsplit (c : Dev nD) :
    (Pipeline.arrBufs (Ix := Unit) (Name := ℕ) (U := UR sig nD τ) (Lvl := ℕ) (cfgs 0).spec c (V m c) : sProp 𝕄)
      ⊢ (dats m 0 c).arrays ((dats m 0 c).arrAt · 0) := by
  rw [show (cfgs 0).spec = spec0 from rfl, arrBufs0_eq, arrays0_eq]
  have hs : ((((c.tc : Thread nD τ).loc main_v0) ↦{fullShare} V m c main_v0) : sProp 𝕄)
      ⊢ iprop((((c.tc : Thread nD τ).loc main_v0) ↦{fullShare.left} V m c main_v0) ∗ (((c.tc : Thread nD τ).loc main_v0) ↦{fullShare.right} V m c main_v0)) :=
    (pointsTo_share (PosShare.mem_left_op_right fullShare)).1
  iintro ⟨H0, H1, H2, H3, H4⟩
  ihave H0 := hs $$ H0
  icases H0 with ⟨H0a, H0b⟩
  isplitl [H0a]; · iexact H0a
  isplitl [H0b]; · iexact H0b
  isplitl [H1]; · iexact H1
  isplitl [H2]; · iexact H2
  isplitl [H3]; · iexact H3
  iexact H4

/-! ## The run and the frame -/

set_option backward.isDefEq.respectTransparency.types false in
/-- Every weakly fair execution of the program terminates, and every final state has every array of the pipeline at
    what the proof data compute and every other unscoped buffer as the region found it. -/
theorem run_main : θ_run defs (onTc (τ := τ) (main (F := F))) (s₀ m ρ) (Pipeline.FramePost cfgs (dats m) 0 (V m)) :=
  Pipeline.θ_run_frame_shared cfgs (dats m) (0 : Fin 1) cellOf_inj winFacts₀0 block_pos0 arr_whole0 stage_whole0 defs₀ Variants.none m ρ main
    (hbody := fun c => (body_obligation m c).loose) (howed := fun _ _ => rfl) (V := V m) (hmain := hmain m Variants.none)
    (hsplit := hsplit m) (hΦ := fun _ _ => rfl)

/-- The two arguments no window stages bypass the region. -/
theorem arg0_rest : main_arg0 ∈ Pipeline.restRefs sig (cfgs 0).spec :=
  Pipeline.mem_restRefs_of main_arg0 rfl (by decide)
theorem arg1_rest : main_arg1 ∈ Pipeline.restRefs sig (cfgs 0).spec :=
  Pipeline.mem_restRefs_of main_arg1 rfl (by decide)

/-- The frame: the four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 arg0_rest).trans (V_main_arg0 m c),
      ((h c).2 main_arg1 arg1_rest).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩) (run_main m ρ)

end Cert.KernelIdeal.Hand

end
-- ==== Proof.KerBlocks.lean ====
/-
  The input blocks of a grid point, entry by entry, in terms of the launched arguments.

  The region finds two transposed arrays: xt[b,c,n,f] = x[b,n,c,f] and dt[b,c,i,j] = d[b,i,j,c]. At grid point t,
  with (B, T) the output window's block index (batch B, row tile T):
    the tiled feature window's block holds xt[B, ·, 64·T + ·, ·], the whole-batch feature window's holds xt[B, ·, ·, ·],
    the distance window's holds dt[B, ·, 64·T + ·, ·], and the weight and bias windows hold the whole arrays.
  The relations between the windows' block indices are decided once over the sixteen grid points.
-/
import proofs.«143016_j6451040878946_1_alg».proof.Proof.FrameRunI
import Idealize.ShloMosaic.Lib.Pipeline.Value
import Idealize.ShloMosaic.Lib.ValueIdx
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-! ## The two transposed arrays -/

theorem V_main_v0_eq (c : Dev nD) :
    (V m c main_v0 : S8x3x128x128.Idx → Elt Ideal .f32)
      = transpose S8x3x128x128 [0, 2, 1, 3] (m ((c : Thread nD τ).loc main_arg0)) Facts₀.transposes_S8x128x3x128_S8x3x128x128_0_2_1_3 := by
  dsimp only [V, hostOps0]; after_results

theorem V_main_v1_eq (c : Dev nD) :
    (V m c main_v1 : S8x3x128x128.Idx → Elt Ideal .f32)
      = transpose S8x3x128x128 [0, 3, 1, 2] (m ((c : Thread nD τ).loc main_arg1)) Facts₀.transposes_S8x128x128x3_S8x3x128x128_0_3_1_2 := by
  dsimp only [V, hostOps0]; after_results

/-- xt[b,c,n,f] = x[b,n,c,f]. -/
theorem V_main_v0_apply (c : Dev nD) (b : Fin 8) (cc : Fin 3) (n : Fin 128) (f : Fin 128) :
    (V m c main_v0 : S8x3x128x128.Idx → Elt Ideal .f32) (ix4 b cc n f) = m ((c : Thread nD τ).loc main_arg0) (ix4 b n cc f) := by
  rw [V_main_v0_eq]
  exact transpose_apply _ _ _ _ (ix4 b n cc f) (fun a => match a with
    | ⟨0, _⟩ => rfl | ⟨1, _⟩ => rfl | ⟨2, _⟩ => rfl | ⟨3, _⟩ => rfl)

/-- dt[b,c,i,j] = d[b,i,j,c]. -/
theorem V_main_v1_apply (c : Dev nD) (b : Fin 8) (cc : Fin 3) (i : Fin 128) (j : Fin 128) :
    (V m c main_v1 : S8x3x128x128.Idx → Elt Ideal .f32) (ix4 b cc i j) = m ((c : Thread nD τ).loc main_arg1) (ix4 b i j cc) := by
  rw [V_main_v1_eq]
  exact transpose_apply _ _ _ _ (ix4 b i j cc) (fun a => match a with
    | ⟨0, _⟩ => rfl | ⟨1, _⟩ => rfl | ⟨2, _⟩ => rfl | ⟨3, _⟩ => rfl)

/-! ## The windows' block indices over the grid -/

theorem idx_facts : ∀ t : Fin cfg0.N,
    win0_0.index t (0 : Fin 4) = win0_5.index t (0 : Fin 4) ∧ win0_0.index t (1 : Fin 4) = 0
    ∧ win0_0.index t (2 : Fin 4) = win0_5.index t (1 : Fin 4) ∧ win0_0.index t (3 : Fin 4) = 0
    ∧ win0_1.index t (0 : Fin 4) = win0_5.index t (0 : Fin 4) ∧ win0_1.index t (1 : Fin 4) = 0
    ∧ win0_1.index t (2 : Fin 4) = 0 ∧ win0_1.index t (3 : Fin 4) = 0
    ∧ win0_2.index t (0 : Fin 4) = win0_5.index t (0 : Fin 4) ∧ win0_2.index t (1 : Fin 4) = 0
    ∧ win0_2.index t (2 : Fin 4) = win0_5.index t (1 : Fin 4) ∧ win0_2.index t (3 : Fin 4) = 0
    ∧ win0_3.index t (0 : Fin 2) = 0 ∧ win0_3.index t (1 : Fin 2) = 0
    ∧ win0_4.index t (0 : Fin 1) = 0
    ∧ win0_5.index t (2 : Fin 4) = 0 ∧ win0_5.index t (3 : Fin 4) = 0
    ∧ win0_5.index t (0 : Fin 4) ≤ 7 ∧ win0_5.index t (1 : Fin 4) ≤ 1 :=
  (by decide +kernel : ∀ t : Fin grid0.N, _)

/-- Every (batch, row tile) is some grid point's output block. -/
theorem idx_onto : ∀ (q0 : Fin 8) (q1 : Fin 2), ∃ t : Fin cfg0.N, win0_5.index t = ![q0.val, q1.val, 0, 0] :=
  (by decide +kernel : ∀ (q0 : Fin 8) (q1 : Fin 2), ∃ t : Fin grid0.N, win0_5.index t = ![q0.val, q1.val, 0, 0])

/-! ## The blocks, entry by entry -/

/-- The tiled feature block: entry (c, p, f) is x[B, 64·T + p, c, f]. -/
theorem iblk0_apply (c : Dev nD) (t : Fin cfg0.N) (cc : Fin 3) (p : Fin 64) (f : Fin 128) (b : Fin 8) (n : Fin 128)
    (hb : b.val = win0_5.index t (0 : Fin 4)) (hn : n.val = win0_5.index t (1 : Fin 4) * 64 + p.val) :
    iblk m c 0 t (ix4 (0 : Fin 1) cc p f) = m ((c : Thread nD τ).loc main_arg0) (ix4 b n cc f) := by
  obtain ⟨e0, e1, e2, e3, -⟩ := idx_facts t
  show (V m c main_v0 : S8x3x128x128.Idx → Elt Ideal .f32) (((cfg0.win 0).blk t).view.emb (ix4 (0 : Fin 1) cc p f)) = _
  rw [← V_main_v0_apply m c b cc n f]
  refine congrArg _ (funext fun a => Fin.ext ?_)
  match a with
  | ⟨0, _⟩ => show win0_0.index t (0 : Fin 4) * 1 + 1 * 0 = b.val; omega
  | ⟨1, _⟩ => show win0_0.index t (1 : Fin 4) * 3 + 1 * cc.val = cc.val; omega
  | ⟨2, _⟩ => show win0_0.index t (2 : Fin 4) * 64 + 1 * p.val = n.val; omega
  | ⟨3, _⟩ => show win0_0.index t (3 : Fin 4) * 128 + 1 * f.val = f.val; omega

/-- The whole-batch feature block: entry (c, j, f) is x[B, j, c, f]. -/
theorem iblk1_apply (c : Dev nD) (t : Fin cfg0.N) (cc : Fin 3) (j : Fin 128) (f : Fin 128) (b : Fin 8)
    (hb : b.val = win0_5.index t (0 : Fin 4)) :
    iblk m c 1 t (ix4 (0 : Fin 1) cc j f) = m ((c : Thread nD τ).loc main_arg0) (ix4 b j cc f) := by
  obtain ⟨-, -, -, -, e0, e1, e2, e3, -⟩ := idx_facts t
  show (V m c main_v0 : S8x3x128x128.Idx → Elt Ideal .f32) (((cfg0.win 1).blk t).view.emb (ix4 (0 : Fin 1) cc j f)) = _
  rw [← V_main_v0_apply m c b cc j f]
  refine congrArg _ (funext fun a => Fin.ext ?_)
  match a with
  | ⟨0, _⟩ => show win0_1.index t (0 : Fin 4) * 1 + 1 * 0 = b.val; omega
  | ⟨1, _⟩ => show win0_1.index t (1 : Fin 4) * 3 + 1 * cc.val = cc.val; omega
  | ⟨2, _⟩ => show win0_1.index t (2 : Fin 4) * 128 + 1 * j.val = j.val; omega
  | ⟨3, _⟩ => show win0_1.index t (3 : Fin 4) * 128 + 1 * f.val = f.val; omega

/-- The distance block: entry (c, p, j) is d[B, 64·T + p, j, c]. -/
theorem iblk2_apply (c : Dev nD) (t : Fin cfg0.N) (cc : Fin 3) (p : Fin 64) (j : Fin 128) (b : Fin 8) (n : Fin 128)
    (hb : b.val = win0_5.index t (0 : Fin 4)) (hn : n.val = win0_5.index t (1 : Fin 4) * 64 + p.val) :
    iblk m c 2 t (ix4 (0 : Fin 1) cc p j) = m ((c : Thread nD τ).loc main_arg1) (ix4 b n j cc) := by
  obtain ⟨-, -, -, -, -, -, -, -, e0, e1, e2, e3, -⟩ := idx_facts t
  show (V m c main_v1 : S8x3x128x128.Idx → Elt Ideal .f32) (((cfg0.win 2).blk t).view.emb (ix4 (0 : Fin 1) cc p j)) = _
  rw [← V_main_v1_apply m c b cc n j]
  refine congrArg _ (funext fun a => Fin.ext ?_)
  match a with
  | ⟨0, _⟩ => show win0_2.index t (0 : Fin 4) * 1 + 1 * 0 = b.val; omega
  | ⟨1, _⟩ => show win0_2.index t (1 : Fin 4) * 3 + 1 * cc.val = cc.val; omega
  | ⟨2, _⟩ => show win0_2.index t (2 : Fin 4) * 64 + 1 * p.val = n.val; omega
  | ⟨3, _⟩ => show win0_2.index t (3 : Fin 4) * 128 + 1 * j.val = j.val; omega

/-- The weight block is the whole weight matrix. -/
theorem iblk3_apply (c : Dev nD) (t : Fin cfg0.N) (r : Fin 256) (k : Fin 128) :
    iblk m c 3 t (ix2 r k) = m ((c : Thread nD τ).loc main_arg2) (ix2 r k) := by
  obtain ⟨-, -, -, -, -, -, -, -, -, -, -, -, e0, e1, -⟩ := idx_facts t
  show (V m c main_arg2 : S256x128.Idx → Elt Ideal .f32) (((cfg0.win 3).blk t).view.emb (ix2 r k)) = _
  rw [V_main_arg2]
  refine congrArg _ (funext fun a => Fin.ext ?_)
  match a with
  | ⟨0, _⟩ => show win0_3.index t (0 : Fin 2) * 256 + 1 * r.val = r.val; omega
  | ⟨1, _⟩ => show win0_3.index t (1 : Fin 2) * 128 + 1 * k.val = k.val; omega

/-- The bias block is the whole bias. -/
theorem iblk4_apply (c : Dev nD) (t : Fin cfg0.N) (k : Fin 128) :
    iblk m c 4 t (ix1 k) = m ((c : Thread nD τ).loc main_arg3) (ix1 k) := by
  obtain ⟨-, -, -, -, -, -, -, -, -, -, -, -, -, -, e0, -⟩ := idx_facts t
  show (V m c main_arg3 : S128.Idx → Elt Ideal .f32) (((cfg0.win 4).blk t).view.emb (ix1 k)) = _
  rw [V_main_arg3]
  refine congrArg _ (funext fun a => Fin.ext ?_)
  match a with
  | ⟨0, _⟩ => show win0_4.index t (0 : Fin 1) * 128 + 1 * k.val = k.val; omega

end Cert.KernelIdeal.Hand

end
-- ==== Proof.Spec.lean ====
/-
  The value both programs compute at one output entry, as two arrangements of one sum.

  Fix an output entry (b, i, j, k). Write, for each of the three coordinates c,
    a c  = Σ_f x[b,i,c,f] · w[f,k]          (the projection of node i by the upper half of the weights),
    cc c = Σ_f x[b,j,c,f] · w[128+f,k]      (the projection of node j by the lower half),
    dd c = d[b,i,j,c]                        (the distance weight),
  and bk = bias[k]. The reference sums ((a c + cc c) + bk) · dd c over c, from zero. The kernel accumulates
  dd c · a c and dd c · cc c coordinate by coordinate, from zero, and adds bk times the sum of the dd c at the end.
  Over the reals these agree by distributivity; over the extended reals they agree when every term is a real.
-/
import Idealize.ShloMosaic.PureOps.Ideal
import Idealize.ShloMosaic.Lib.ValueIdx

noncomputable section

namespace Cert.Spec

open Idealize.ShloMosaic

/-- Row f of the upper half of a 256-row weight matrix. -/
abbrev lo (f : Fin 128) : Fin 256 := ⟨f.val, by have := f.isLt; omega⟩
/-- Row f of the lower half of a 256-row weight matrix. -/
abbrev hi (f : Fin 128) : Fin 256 := ⟨128 + f.val, by have := f.isLt; omega⟩

/-- The reference's arrangement: the sum over the three coordinates of (a + cc + bias) times the weight, from zero. -/
def refForm (a cc dd : Fin 3 → EReal) (bk : EReal) : EReal :=
  0 + ∑ c : Fin 3, ((a c + cc c) + bk) * dd c

/-- The kernel's arrangement: the six products accumulated in coordinate order from zero, then the bias times the
    accumulated weights. -/
def kerForm (a cc dd : Fin 3 → EReal) (bk : EReal) : EReal :=
  ((((((0 + dd 0 * a 0) + dd 0 * cc 0) + dd 1 * a 1) + dd 1 * cc 1) + dd 2 * a 2) + dd 2 * cc 2)
    + bk * (((0 + dd 0) + dd 1) + dd 2)

end Cert.Spec

end
-- ==== Proof.BlockAt.lean ====
/-
  The block one grid point stores, read at one entry.

  At the ideal values a narrowing format change is the identity, a product into the zero accumulator is the plain
  sum over the contracted coordinate, and every layout step (dropping or adding unit axes, repeating a plane
  along a new axis) reads one entry of its operand. Pushing the entry (0, p, j, k) of the stored block through the
  body's arithmetic gives the six products dd c · a c, dd c · cc c accumulated in coordinate order from zero,
  plus the bias times the accumulated weights: the kernel's arrangement of the specification.
-/
import proofs.«143016_j6451040878946_1_alg».proof.Proof.BlockI
import proofs.«143016_j6451040878946_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal
open scoped BigOperators

namespace BlockAt

/-! ## Loaded rectangles read at an entry -/

/-- Plane 0 of a 64-row block. -/
theorem ld_I0 (X : Vec Ideal S1x3x64x128 .f32) (p : Fin 64) (f : Fin 128) :
    (View.ld X rI0 : Vec Ideal S1x1x64x128 .f32) (ix4 (0 : Fin 1) (0 : Fin 1) p f) = X (ix4 (0 : Fin 1) (0 : Fin 3) p f) :=
  congrArg X (funext fun a => Fin.ext (by
    match a with
    | ⟨0, _⟩ => rfl
    | ⟨1, _⟩ => rfl
    | ⟨2, _⟩ => show 0 + 1 * p.val = p.val; omega
    | ⟨3, _⟩ => show 0 + 1 * f.val = f.val; omega))
/-- Plane 1 of a 64-row block. -/
theorem ld_I1 (X : Vec Ideal S1x3x64x128 .f32) (p : Fin 64) (f : Fin 128) :
    (View.ld X rI1 : Vec Ideal S1x1x64x128 .f32) (ix4 (0 : Fin 1) (0 : Fin 1) p f) = X (ix4 (0 : Fin 1) (1 : Fin 3) p f) :=
  congrArg X (funext fun a => Fin.ext (by
    match a with
    | ⟨0, _⟩ => rfl
    | ⟨1, _⟩ => rfl
    | ⟨2, _⟩ => show 0 + 1 * p.val = p.val; omega
    | ⟨3, _⟩ => show 0 + 1 * f.val = f.val; omega))
/-- Plane 2 of a 64-row block. -/
theorem ld_I2 (X : Vec Ideal S1x3x64x128 .f32) (p : Fin 64) (f : Fin 128) :
    (View.ld X rI2 : Vec Ideal S1x1x64x128 .f32) (ix4 (0 : Fin 1) (0 : Fin 1) p f) = X (ix4 (0 : Fin 1) (2 : Fin 3) p f) :=
  congrArg X (funext fun a => Fin.ext (by
    match a with
    | ⟨0, _⟩ => rfl
    | ⟨1, _⟩ => rfl
    | ⟨2, _⟩ => show 0 + 1 * p.val = p.val; omega
    | ⟨3, _⟩ => show 0 + 1 * f.val = f.val; omega))
/-- Plane 0 of a 128-row block. -/
theorem ld_J0 (X : Vec Ideal S1x3x128x128 .f32) (j : Fin 128) (f : Fin 128) :
    (View.ld X rJ0 : Vec Ideal S1x1x128x128 .f32) (ix4 (0 : Fin 1) (0 : Fin 1) j f) = X (ix4 (0 : Fin 1) (0 : Fin 3) j f) :=
  congrArg X (funext fun a => Fin.ext (by
    match a with
    | ⟨0, _⟩ => rfl
    | ⟨1, _⟩ => rfl
    | ⟨2, _⟩ => show 0 + 1 * j.val = j.val; omega
    | ⟨3, _⟩ => show 0 + 1 * f.val = f.val; omega))
/-- Plane 1 of a 128-row block. -/
theorem ld_J1 (X : Vec Ideal S1x3x128x128 .f32) (j : Fin 128) (f : Fin 128) :
    (View.ld X rJ1 : Vec Ideal S1x1x128x128 .f32) (ix4 (0 : Fin 1) (0 : Fin 1) j f) = X (ix4 (0 : Fin 1) (1 : Fin 3) j f) :=
  congrArg X (funext fun a => Fin.ext (by
    match a with
    | ⟨0, _⟩ => rfl
    | ⟨1, _⟩ => rfl
    | ⟨2, _⟩ => show 0 + 1 * j.val = j.val; omega
    | ⟨3, _⟩ => show 0 + 1 * f.val = f.val; omega))
/-- Plane 2 of a 128-row block. -/
theorem ld_J2 (X : Vec Ideal S1x3x128x128 .f32) (j : Fin 128) (f : Fin 128) :
    (View.ld X rJ2 : Vec Ideal S1x1x128x128 .f32) (ix4 (0 : Fin 1) (0 : Fin 1) j f) = X (ix4 (0 : Fin 1) (2 : Fin 3) j f) :=
  congrArg X (funext fun a => Fin.ext (by
    match a with
    | ⟨0, _⟩ => rfl
    | ⟨1, _⟩ => rfl
    | ⟨2, _⟩ => show 0 + 1 * j.val = j.val; omega
    | ⟨3, _⟩ => show 0 + 1 * f.val = f.val; omega))
/-- The upper 128 rows of the weights. -/
theorem ld_Wlo (W : Vec Ideal S256x128 .f32) (f : Fin 128) (k : Fin 128) :
    (View.ld W rWlo : Vec Ideal S128x128 .f32) (ix2 f k) = W (ix2 (Cert.Spec.lo f) k) :=
  congrArg W (funext fun a => Fin.ext (by
    match a with
    | ⟨0, _⟩ => show 0 + 1 * f.val = f.val; omega
    | ⟨1, _⟩ => show 0 + 1 * k.val = k.val; omega))
/-- The lower 128 rows of the weights. -/
theorem ld_Whi (W : Vec Ideal S256x128 .f32) (f : Fin 128) (k : Fin 128) :
    (View.ld W rWhi : Vec Ideal S128x128 .f32) (ix2 f k) = W (ix2 (Cert.Spec.hi f) k) :=
  congrArg W (funext fun a => Fin.ext (by
    match a with
    | ⟨0, _⟩ => show 128 + 1 * f.val = 128 + f.val; omega
    | ⟨1, _⟩ => show 0 + 1 * k.val = k.val; omega))
/-- The whole bias. -/
theorem ld_B (B : Vec Ideal S128 .f32) (k : Fin 128) :
    (View.ld B rB : Vec Ideal S128 .f32) (ix1 k) = B (ix1 k) :=
  congrArg B (funext fun a => Fin.ext (by
    match a with
    | ⟨0, _⟩ => show 0 + 1 * k.val = k.val; omega))

/-! ## A product into the zero accumulator read at an entry -/

theorem lhs_mm64_0 (i : S64x128.Idx) (q : dot_S64x128_S128x128_S64x128_1_0_0_1_n_n.contr.Idx) :
    (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem lhs_mm64_1 (i : S64x128.Idx) (q : dot_S64x128_S128x128_S64x128_1_0_0_1_n_n.contr.Idx) :
    (dot_S64x128_S128x128_S64x128_1_0_0_1_n_n.lhsIdx i q 1).val = (q ⟨0, by decide⟩).val :=
  dot_S64x128_S128x128_S64x128_1_0_0_1_n_n.lhsIdx_val_of_single rfl i q
theorem rhs_mm64_0 (i : S64x128.Idx) (q : dot_S64x128_S128x128_S64x128_1_0_0_1_n_n.contr.Idx) :
    (dot_S64x128_S128x128_S64x128_1_0_0_1_n_n.rhsIdx i q 0).val = (q ⟨0, by decide⟩).val :=
  dot_S64x128_S128x128_S64x128_1_0_0_1_n_n.rhsIdx_val_of_single rfl i q
theorem rhs_mm64_1 (i : S64x128.Idx) (q : dot_S64x128_S128x128_S64x128_1_0_0_1_n_n.contr.Idx) :
    (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl

/-- A 64×128 by 128×128 product into zero, at (p, k): the sum over the contracted coordinate. -/
theorem mm64_apply (A : FVec Ideal S64x128 .bf16) (B : FVec Ideal S128x128 .bf16) (p : Fin 64) (k : Fin 128) :
    matmul dot_S64x128_S128x128_S64x128_1_0_0_1_n_n none A B (constant (F := Ideal) S64x128 .f32 0x00000000#32) (ix2 p k)
      = ∑ f : Fin 128, A (ix2 p f) * B (ix2 f k) := by
  simp only [matmul]
  rw [Ideal.matmul_constant_zero_apply, ← Equiv.sum_comp (contrEquiv1 dot_S64x128_S128x128_S64x128_1_0_0_1_n_n 128 rfl rfl).symm]
  refine Finset.sum_congr rfl fun f _ => ?_
  have hk := contrEquiv1_symm_val dot_S64x128_S128x128_S64x128_1_0_0_1_n_n 128 rfl rfl f
  have el : dot_S64x128_S128x128_S64x128_1_0_0_1_n_n.lhsIdx (ix2 p k) ((contrEquiv1 dot_S64x128_S128x128_S64x128_1_0_0_1_n_n 128 rfl rfl).symm f) = ix2 p f := funext fun a => Fin.ext (by
    match a with
    | ⟨0, _⟩ => exact lhs_mm64_0 _ _
    | ⟨1, _⟩ => exact (lhs_mm64_1 _ _).trans hk)
  have er : dot_S64x128_S128x128_S64x128_1_0_0_1_n_n.rhsIdx (ix2 p k) ((contrEquiv1 dot_S64x128_S128x128_S64x128_1_0_0_1_n_n 128 rfl rfl).symm f) = ix2 f k := funext fun a => Fin.ext (by
    match a with
    | ⟨0, _⟩ => exact (rhs_mm64_0 _ _).trans hk
    | ⟨1, _⟩ => exact rhs_mm64_1 _ _)
  rw [el, er]

theorem lhs_mm128_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem lhs_mm128_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
theorem rhs_mm128_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
theorem rhs_mm128_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A 128×128 by 128×128 product into zero, at (j, k): the sum over the contracted coordinate. -/
theorem mm128_apply (A : FVec Ideal S128x128 .bf16) (B : FVec Ideal S128x128 .bf16) (j : Fin 128) (k : Fin 128) :
    matmul dot_S128x128_S128x128_S128x128_1_0_0_1_n_n none A B (constant (F := Ideal) S128x128 .f32 0x00000000#32) (ix2 j k)
      = ∑ f : Fin 128, A (ix2 j f) * B (ix2 f k) := by
  simp only [matmul]
  rw [Ideal.matmul_constant_zero_apply, ← Equiv.sum_comp (contrEquiv1 dot_S128x128_S128x128_S128x128_1_0_0_1_n_n 128 rfl rfl).symm]
  refine Finset.sum_congr rfl fun f _ => ?_
  have hk := contrEquiv1_symm_val dot_S128x128_S128x128_S128x128_1_0_0_1_n_n 128 rfl rfl f
  have el : dot_S128x128_S128x128_S128x128_1_0_0_1_n_n.lhsIdx (ix2 j k) ((contrEquiv1 dot_S128x128_S128x128_S128x128_1_0_0_1_n_n 128 rfl rfl).symm f) = ix2 j f := funext fun a => Fin.ext (by
    match a with
    | ⟨0, _⟩ => exact lhs_mm128_0 _ _
    | ⟨1, _⟩ => exact (lhs_mm128_1 _ _).trans hk)
  have er : dot_S128x128_S128x128_S128x128_1_0_0_1_n_n.rhsIdx (ix2 j k) ((contrEquiv1 dot_S128x128_S128x128_S128x128_1_0_0_1_n_n 128 rfl rfl).symm f) = ix2 f k := funext fun a => Fin.ext (by
    match a with
    | ⟨0, _⟩ => exact (rhs_mm128_0 _ _).trans hk
    | ⟨1, _⟩ => exact rhs_mm128_1 _ _)
  rw [el, er]

/-! ## Layout steps read at an entry -/

section Layout
variable {α : Type}

/-- Two leading unit axes dropped: [1, 1, a, b] read as [a, b]. -/
theorem cast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A trailing unit axis added: [a, b] read as [a, b, 1]. -/
theorem cast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- A middle unit axis added: [a, b] read as [a, 1, b]. -/
theorem cast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- Two leading unit axes added to a vector: [a] read as [1, 1, a]. -/
theorem cast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- A column repeated along a new last axis: [a, b, 1] to [a, b, c]. -/
theorem bcast_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A row repeated along a new middle axis: [a, 1, c] to [a, b, c]. -/
theorem bcast_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A plane repeated along a new leading axis: [1, b, c] to [a, b, c]. -/
theorem bcast_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A vector repeated over two new leading axes: [1, 1, c] to [a, b, c]. -/
theorem bcast_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-- The zero word is the real zero. -/
theorem zero_word : (FloatOps.ofBits (F := Ideal) .f32 0x00000000#32) = (0 : EReal) := Ideal.ofBits_zero_f32

/-! ## The payloads read at an entry -/

/-- The narrowing of a weight half is the half itself. -/
theorem pay2_apply (v0 : Vec Ideal S128x128 .f32) (i : S128x128.Idx) : Gen.k0_pay2 (F := Ideal) v0 i = v0 i := rfl
theorem pay3_apply (v2 : Vec Ideal S128x128 .f32) (i : S128x128.Idx) : Gen.k0_pay3 (F := Ideal) v2 i = v2 i := rfl

/-- A weight plane with its unit axes dropped. -/
theorem pay4_apply (v15 : Vec Ideal S1x1x64x128 .f32) (p : Fin 64) (j : Fin 128) :
    Gen.k0_pay4 (F := Ideal) v15 (ix2 p j) = v15 (ix4 (0 : Fin 1) (0 : Fin 1) p j) := by
  unfold Gen.k0_pay4
  exact cast_11ab_ab_apply v15 _ p j
theorem pay8_apply (v38 : Vec Ideal S1x1x64x128 .f32) (p : Fin 64) (j : Fin 128) :
    Gen.k0_pay8 (F := Ideal) v38 (ix2 p j) = v38 (ix4 (0 : Fin 1) (0 : Fin 1) p j) := by
  unfold Gen.k0_pay8
  exact cast_11ab_ab_apply v38 _ p j
theorem pay11_apply (v61 : Vec Ideal S1x1x64x128 .f32) (p : Fin 64) (j : Fin 128) :
    Gen.k0_pay11 (F := Ideal) v61 (ix2 p j) = v61 (ix4 (0 : Fin 1) (0 : Fin 1) p j) := by
  unfold Gen.k0_pay11
  exact cast_11ab_ab_apply v61 _ p j
/-- A query plane with its unit axes dropped, narrowed. -/
theorem pay7_apply (v30 : Vec Ideal S1x1x64x128 .f32) (p : Fin 64) (f : Fin 128) :
    Gen.k0_pay7 (F := Ideal) v30 (ix2 p f) = v30 (ix4 (0 : Fin 1) (0 : Fin 1) p f) := by
  unfold Gen.k0_pay7
  exact cast_11ab_ab_apply v30 _ p f

/-- The first weight plane added to zero. -/
theorem pay6_apply (v15 : Vec Ideal S1x1x64x128 .f32) (p : Fin 64) (j : Fin 128) :
    Gen.k0_pay6 (F := Ideal) v15 (ix2 p j) = 0 + v15 (ix4 (0 : Fin 1) (0 : Fin 1) p j) := by
  unfold Gen.k0_pay6
  show FloatOps.ofBits (F := Ideal) .f32 0x00000000#32 + Gen.k0_pay4 (F := Ideal) v15 (ix2 p j) = _
  rw [zero_word, pay4_apply]

/-- The second weight plane added to the running sum of weights. -/
theorem pay9_apply (v29 : FVec Ideal S64x128 .f32) (v38 : Vec Ideal S1x1x64x128 .f32) (p : Fin 64) (j : Fin 128) :
    Gen.k0_pay9 (F := Ideal) v29 v38 (ix2 p j) = v29 (ix2 p j) + v38 (ix4 (0 : Fin 1) (0 : Fin 1) p j) := by
  unfold Gen.k0_pay9
  show v29 (ix2 p j) + Gen.k0_pay8 (F := Ideal) v38 (ix2 p j) = _
  rw [pay8_apply]

/-- The third partner projection: the partner plane times the lower weight half. -/
theorem pay10_apply (v3 : FVec Ideal S128x128 .bf16) (v56 : Vec Ideal S1x1x128x128 .f32) (j : Fin 128) (k : Fin 128) :
    Gen.k0_pay10 (F := Ideal) v3 v56 (ix2 j k) = ∑ f : Fin 128, v56 (ix4 (0 : Fin 1) (0 : Fin 1) j f) * v3 (ix2 f k) := by
  unfold Gen.k0_pay10
  refine (mm128_apply _ v3 j k).trans ?_
  refine Finset.sum_congr rfl fun f _ => ?_
  refine congrArg (· * v3 (ix2 f k)) ?_
  exact cast_11ab_ab_apply v56 _ j f

/-- The accumulator after the first coordinate: from zero, the first weight times the first query projection, then
    times the first partner projection. -/
theorem pay5_apply (v0 v2 : Vec Ideal S128x128 .f32) (v7 : Vec Ideal S1x1x64x128 .f32) (v10 : Vec Ideal S1x1x128x128 .f32)
    (v15 : Vec Ideal S1x1x64x128 .f32) (p : Fin 64) (j k : Fin 128) :
    Gen.k0_pay5 (F := Ideal) v0 v2 v7 v10 v15 (ix3 p j k)
      = (0 + v15 (ix4 (0 : Fin 1) (0 : Fin 1) p j) * ∑ f : Fin 128, v7 (ix4 (0 : Fin 1) (0 : Fin 1) p f) * v0 (ix2 f k))
        + v15 (ix4 (0 : Fin 1) (0 : Fin 1) p j) * ∑ f : Fin 128, v10 (ix4 (0 : Fin 1) (0 : Fin 1) j f) * v2 (ix2 f k) := by
  unfold Gen.k0_pay5
  simp only [addf_apply, mulf_apply, broadcast_apply, bcast_ab1_abc_apply, bcast_a1c_abc_apply, bcast_1bc_abc_apply,
    cast_ab_ab1_apply, cast_ab_a1b_apply, shapeCast_ab_1ab_apply, mm64_apply, mm128_apply, truncf_apply,
    cast_11ab_ab_apply, pay2_apply, pay3_apply, pay4_apply, zero_word]

/-- The accumulator after the second coordinate's two products and the third coordinate's query product. -/
theorem pay12_apply (v1 v3 : FVec Ideal S128x128 .bf16) (v28 : FVec Ideal S64x128x128 .f32) (v32 : FVec Ideal S64x128 .bf16)
    (v33 : Vec Ideal S1x1x128x128 .f32) (v38 v53 v61 : Vec Ideal S1x1x64x128 .f32) (p : Fin 64) (j k : Fin 128) :
    Gen.k0_pay12 (F := Ideal) v1 v3 v28 v32 v33 v38 v53 v61 (ix3 p j k)
      = ((v28 (ix3 p j k)
            + v38 (ix4 (0 : Fin 1) (0 : Fin 1) p j) * ∑ f : Fin 128, v32 (ix2 p f) * v1 (ix2 f k))
          + v38 (ix4 (0 : Fin 1) (0 : Fin 1) p j) * ∑ f : Fin 128, v33 (ix4 (0 : Fin 1) (0 : Fin 1) j f) * v3 (ix2 f k))
        + v61 (ix4 (0 : Fin 1) (0 : Fin 1) p j) * ∑ f : Fin 128, v53 (ix4 (0 : Fin 1) (0 : Fin 1) p f) * v1 (ix2 f k) := by
  unfold Gen.k0_pay12
  simp only [addf_apply, mulf_apply, bcast_ab1_abc_apply, bcast_a1c_abc_apply, bcast_1bc_abc_apply,
    cast_ab_ab1_apply, cast_ab_a1b_apply, shapeCast_ab_1ab_apply, mm64_apply, mm128_apply, truncf_apply,
    cast_11ab_ab_apply, pay8_apply, pay11_apply]

/-- The stored block: the accumulator plus the third coordinate's partner product, plus the bias times the summed
    weights, with a leading unit axis. -/
theorem pay1_apply (v4 : Vec Ideal S128 .f32) (v52 : FVec Ideal S64x128 .f32) (v60 : FVec Ideal S128x128 .f32)
    (v62 : FVec Ideal S64x128 .f32) (v68 : FVec Ideal S64x128x128 .f32) (p : Fin 64) (j k : Fin 128) :
    Gen.k0_pay1 (F := Ideal) v4 v52 v60 v62 v68 (ix4 (0 : Fin 1) p j k)
      = (v68 (ix3 p j k) + v62 (ix2 p j) * v60 (ix2 j k)) + v4 (ix1 k) * (v52 (ix2 p j) + v62 (ix2 p j)) := by
  unfold Gen.k0_pay1
  simp only [shapeCast_abc_1abc_apply, addf_apply, mulf_apply, bcast_ab1_abc_apply, bcast_1bc_abc_apply, bcast_11c_abc_apply,
    cast_ab_ab1_apply, shapeCast_ab_1ab_apply, cast_a_11a_apply]

end BlockAt

open BlockAt

/-! ## The stored block at an entry -/

/-- Entry (0, p, j, k) of the block a grid point stores is the kernel's arrangement of the specification, over the
    three query projections of node p, the three partner projections of node j, and the three weights of the pair. -/
theorem blockOut_apply (xi : Vec Ideal S1x3x64x128 .f32) (xj : Vec Ideal S1x3x128x128 .f32) (dd : Vec Ideal S1x3x64x128 .f32)
    (w : Vec Ideal S256x128 .f32) (bias : Vec Ideal S128 .f32) (p : Fin 64) (j : Fin 128) (k : Fin 128) :
    blockOut (F := Ideal) xi xj dd w bias (ix4 (0 : Fin 1) p j k)
      = Cert.Spec.kerForm
          (fun c => ∑ f : Fin 128, xi (ix4 (0 : Fin 1) c p f) * w (ix2 (Cert.Spec.lo f) k))
          (fun c => ∑ f : Fin 128, xj (ix4 (0 : Fin 1) c j f) * w (ix2 (Cert.Spec.hi f) k))
          (fun c => dd (ix4 (0 : Fin 1) c p j))
          (bias (ix1 k)) := by
  unfold blockOut Cert.Spec.kerForm
  rw [pay1_apply, pay12_apply, pay5_apply, pay9_apply, pay6_apply, pay10_apply, pay11_apply]
  simp only [pay2_apply, pay3_apply, pay7_apply, ld_B bias, ld_I0 dd, ld_I1 dd, ld_I2 dd, ld_I0 xi, ld_I1 xi, ld_I2 xi,
    ld_J0 xj, ld_J1 xj, ld_J2 xj, ld_Wlo w, ld_Whi w]

end Cert.KernelIdeal.Hand

end
-- ==== Proof.Algebra.lean ====
/-
  The two arrangements of the three-coordinate sum agree when every term is a real number.

  Over the extended reals multiplication does not distribute over addition at the infinities, so the
  agreement is proved by moving to the reals: each entry is the coercion of a real, the coercion
  commutes with sums and products, and over the reals the identity is distributivity.
-/
import proofs.«143016_j6451040878946_1_alg».proof.Proof.Spec
import Mathlib.Data.EReal.Basic
import Mathlib.Algebra.BigOperators.Fin
import Mathlib.Tactic.Ring

noncomputable section

namespace Cert.Spec

open Idealize.ShloMosaic

/-- With real entries, the kernel's arrangement equals the reference's. -/
theorem kerForm_eq_refForm (a cc dd : Fin 3 → EReal) (bk : EReal)
    (ha : ∀ c, ∃ r : ℝ, a c = (r : EReal)) (hc : ∀ c, ∃ r : ℝ, cc c = (r : EReal))
    (hd : ∀ c, ∃ r : ℝ, dd c = (r : EReal)) (hb : ∃ r : ℝ, bk = (r : EReal)) :
    kerForm a cc dd bk = refForm a cc dd bk := by
  choose ra hra using ha
  choose rc hrc using hc
  choose rd hrd using hd
  obtain ⟨rb, hrb⟩ := hb
  have ea : a = fun c => (ra c : EReal) := funext hra
  have ec : cc = fun c => (rc c : EReal) := funext hrc
  have ed : dd = fun c => (rd c : EReal) := funext hrd
  subst ea ec ed hrb
  unfold kerForm refForm
  rw [Fin.sum_univ_three]
  simp only [← EReal.coe_mul, ← EReal.coe_add, ← EReal.coe_zero]
  congr 1
  ring

/-- A finite sum of products of reals is a real. -/
theorem real_sum_mul {n : Nat} (u v : Fin n → EReal) (hu : ∀ f, ∃ r : ℝ, u f = (r : EReal))
    (hv : ∀ f, ∃ r : ℝ, v f = (r : EReal)) :
    ∃ r : ℝ, (∑ f : Fin n, u f * v f) = (r : EReal) := by
  choose ru hru using hu
  choose rv hrv using hv
  refine ⟨∑ f : Fin n, ru f * rv f, ?_⟩
  simp only [hru, hrv, ← EReal.coe_mul]
  induction n with
  | zero => simp
  | succ m ih =>
    rw [Fin.sum_univ_castSucc, Fin.sum_univ_castSucc, EReal.coe_add]
    congr 1
    exact ih (fun f => u f.castSucc) (fun f => v f.castSucc) (fun f => ru f.castSucc)
      (fun f => hru f.castSucc) (fun f => rv f.castSucc) (fun f => hrv f.castSucc)

end Cert.Spec

end
-- ==== Proof.SpecArr.lean ====
/-
  The result as one function of the four argument arrays, in the kernel's and in the reference's arrangement.

  At output entry (b, i, j, k): a c is the feature row of node i, coordinate c, against column k of the upper half
  of the weights; cc c is the feature row of node j against the lower half; dd c is the distance weight of the pair
  (i, j) at coordinate c; and the bias entry is bias[k]. When every argument entry is a real number so is every
  a c and cc c (finite sums of products of reals), and the two arrangements agree.
-/
import proofs.«143016_j6451040878946_1_alg».proof.Proof.Spec
import proofs.«143016_j6451040878946_1_alg».proof.Proof.Algebra

noncomputable section

namespace Cert.Spec

open Idealize.ShloMosaic Idealize.ShloMosaic.ValueIdx

variable (a0 : (⟨4, ![8, 128, 3, 128]⟩ : Shape).Idx → EReal) (a1 : (⟨4, ![8, 128, 128, 3]⟩ : Shape).Idx → EReal)
  (a2 : (⟨2, ![256, 128]⟩ : Shape).Idx → EReal) (a3 : (⟨1, ![128]⟩ : Shape).Idx → EReal)

/-- The projection of node n of batch b, coordinate c, by the upper half of the weights, at column k. -/
def projLo (b : Fin 8) (n : Fin 128) (k : Fin 128) (c : Fin 3) : EReal := ∑ f : Fin 128, a0 (ix4 b n c f) * a2 (ix2 (lo f) k)
/-- The same by the lower half. -/
def projHi (b : Fin 8) (n : Fin 128) (k : Fin 128) (c : Fin 3) : EReal := ∑ f : Fin 128, a0 (ix4 b n c f) * a2 (ix2 (hi f) k)

/-- The output array in the kernel's arrangement. -/
def Gker : (⟨4, ![8, 128, 128, 128]⟩ : Shape).Idx → EReal := fun i =>
  kerForm (projLo a0 a2 (i 0) (i 1) (i 3)) (projHi a0 a2 (i 0) (i 2) (i 3)) (fun c => a1 (ix4 (i 0) (i 1) (i 2) c)) (a3 (ix1 (i 3)))

/-- The output array in the reference's arrangement. -/
def Gref : (⟨4, ![8, 128, 128, 128]⟩ : Shape).Idx → EReal := fun i =>
  refForm (projLo a0 a2 (i 0) (i 1) (i 3)) (projHi a0 a2 (i 0) (i 2) (i 3)) (fun c => a1 (ix4 (i 0) (i 1) (i 2) c)) (a3 (ix1 (i 3)))

/-- The kernel's arrangement at an entry given by its four coordinates. -/
theorem Gker_ix4 (b : Fin 8) (n j k : Fin 128) :
    Gker a0 a1 a2 a3 (ix4 b n j k) = kerForm (projLo a0 a2 b n k) (projHi a0 a2 b j k) (fun c => a1 (ix4 b n j c)) (a3 (ix1 k)) := rfl

/-- Over real entries the two arrangements are one array. -/
theorem Gker_eq_Gref (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    Gker a0 a1 a2 a3 = Gref a0 a1 a2 a3 := by
  funext i
  unfold Gker Gref
  exact kerForm_eq_refForm _ _ _ _
    (fun c => real_sum_mul _ _ (fun f => h0 _) (fun f => h2 _))
    (fun c => real_sum_mul _ _ (fun f => h0 _) (fun f => h2 _))
    (fun c => h1 _) (h3 _)

end Cert.Spec

end
-- ==== Proof.KerValue.lean ====
/-
  The output array of the kernel program after its run: the kernel's arrangement `Gker` of the four arguments.

  Grid point t writes back the whole output block at block index (B, T, 0, 0). Entry (0, p, j, k) of that block is the
  body's payload there, which reads the tiled feature block at row p, the whole-batch feature block at row j, the
  distance block at (p, j), and the weights and bias at column k; those are the arguments' entries at batch B and
  node 64·T + p, so the written block is block t of `Gker`. Every output entry lies in the block of the grid point
  whose batch is its first coordinate and whose row tile is its second coordinate divided by 64.
-/
import proofs.«143016_j6451040878946_1_alg».proof.Proof.KerBlocks
import proofs.«143016_j6451040878946_1_alg».proof.Proof.BlockAt
import proofs.«143016_j6451040878946_1_alg».proof.Proof.SpecArr

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The kernel's arrangement of the launched arguments of core c. -/
abbrev Gk (c : Dev nD) : S8x128x128x128.Idx → Elt Ideal .f32 :=
  Cert.Spec.Gker (m ((c : Thread nD τ).loc main_arg0)) (m ((c : Thread nD τ).loc main_arg1))
    (m ((c : Thread nD τ).loc main_arg2)) (m ((c : Thread nD τ).loc main_arg3))

/-- What point t writes back is block t of the kernel's arrangement. -/
theorem flushed5_eq (c : Dev nD) (t : Fin cfg0.N) :
    (dats m 0 c).flushed 5 t = ((cfg0.win 5).blk t).view.read (Elt Ideal) (Gk m c) := by
  show (cfg0.win 5).cut (grid0.coords t) ((dats m 0 c).after 5 t) = _
  rw [after0_5]
  unfold out0_5
  rw [View.canon_unit_zero hz4]
  obtain ⟨-, -, -, -, -, -, -, -, -, -, -, -, -, -, -, e2, e3, l0, l1⟩ := idx_facts t
  funext y
  have hy1 : (y 1).val < 64 := (y 1).isLt
  have hy2 : (y 2).val < 128 := (y 2).isLt
  have hy3 : (y 3).val < 128 := (y 3).isLt
  have hy0 : (y 0).val < 1 := (y 0).isLt
  -- the coordinates of the entry
  let b : Fin 8 := ⟨win0_5.index t (0 : Fin 4), by omega⟩
  let n : Fin 128 := ⟨win0_5.index t (1 : Fin 4) * 64 + (y 1).val, by omega⟩
  let p : Fin 64 := ⟨(y 1).val, hy1⟩
  let j : Fin 128 := ⟨(y 2).val, hy2⟩
  let k : Fin 128 := ⟨(y 3).val, hy3⟩
  have hy : y = ix4 (0 : Fin 1) p j k := funext fun a => Fin.ext (by
    match a with
    | ⟨0, _⟩ => show (y 0).val = 0; omega
    | ⟨1, _⟩ => rfl
    | ⟨2, _⟩ => rfl
    | ⟨3, _⟩ => rfl)
  have hemb : ((cfg0.win 5).blk t).view.emb y = ix4 b n j k := funext fun a => Fin.ext (by
    match a with
    | ⟨0, _⟩ => show win0_5.index t (0 : Fin 4) * 1 + 1 * (y 0).val = win0_5.index t (0 : Fin 4); omega
    | ⟨1, _⟩ => show win0_5.index t (1 : Fin 4) * 64 + 1 * (y 1).val = win0_5.index t (1 : Fin 4) * 64 + (y 1).val; omega
    | ⟨2, _⟩ => show win0_5.index t (2 : Fin 4) * 128 + 1 * (y 2).val = (y 2).val; omega
    | ⟨3, _⟩ => show win0_5.index t (3 : Fin 4) * 128 + 1 * (y 3).val = (y 3).val; omega)
  show blockOut (F := Ideal) (iblk m c 0 t) (iblk m c 1 t) (iblk m c 2 t) (iblk m c 3 t) (iblk m c 4 t) y
    = Gk m c (((cfg0.win 5).blk t).view.emb y)
  rw [hemb, hy, blockOut_apply]
  unfold Gk
  rw [Cert.Spec.Gker_ix4]
  refine congr (congr (congr (congrArg Cert.Spec.kerForm ?_) ?_) ?_) ?_
  · funext cc
    unfold Cert.Spec.projLo
    exact Finset.sum_congr rfl fun f _ => by rw [iblk0_apply m c t cc p f b n rfl rfl, iblk3_apply]
  · funext cc
    unfold Cert.Spec.projHi
    exact Finset.sum_congr rfl fun f _ => by rw [iblk1_apply m c t cc j f b rfl, iblk3_apply]
  · funext cc
    exact iblk2_apply m c t cc p j b n rfl rfl
  · exact iblk4_apply m c t k

/-- An index of the output array is in point t's block iff each coordinate is in the block's range. -/
theorem mem_blk5 (t : Fin cfg0.N) (i : S8x128x128x128.Idx) :
    i ∈ ((cfg0.win 5).blk t).view.set ↔ ∀ a : Fin 4, win0_5.index t a * S1x64x128x128.size a ≤ (i a).val
      ∧ (i a).val < win0_5.index t a * S1x64x128x128.size a + S1x64x128x128.size a := by
  show i ∈ ((View.whole main_v2).slice (win0_5.rect t)).set ↔ _
  rw [View.set_slice_whole, Rect.mem_set_unit]
  exact Iff.rfl

/-- Every output entry is in some grid point's block. -/
theorem cover5 (i : S8x128x128x128.Idx) :
    ∃ t : Fin cfg0.N, (cfg0.win 5).flush t = true ∧ i ∈ ((cfg0.win 5).blk t).view.set := by
  have h0 : (i 0).val < 8 := (i 0).isLt
  have h1 : (i 1).val < 128 := (i 1).isLt
  have h2 : (i 2).val < 128 := (i 2).isLt
  have h3 : (i 3).val < 128 := (i 3).isLt
  obtain ⟨t, ht⟩ := idx_onto ⟨(i 0).val, h0⟩ ⟨(i 1).val / 64, by omega⟩
  have q0 : win0_5.index t (0 : Fin 4) = (i 0).val := congrFun ht 0
  have q1 : win0_5.index t (1 : Fin 4) = (i 1).val / 64 := congrFun ht 1
  have q2 : win0_5.index t (2 : Fin 4) = 0 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 64 ≤ (i 1).val ∧ (i 1).val < win0_5.index t (1 : Fin 4) * 64 + 64; omega
  | ⟨2, _⟩ => show win0_5.index t (2 : Fin 4) * 128 ≤ (i 2).val ∧ (i 2).val < win0_5.index t (2 : Fin 4) * 128 + 128; omega
  | ⟨3, _⟩ => show win0_5.index t (3 : Fin 4) * 128 ≤ (i 3).val ∧ (i 3).val < win0_5.index t (3 : Fin 4) * 128 + 128; omega

/-- The output array after the run. -/
theorem final5 (c : Dev nD) : (dats m 0 c).arrAt 5 cfg0.N = Gk m c :=
  (dats m 0 c).arrAt_eq_of_cover 5 (Gk m c) (fun t _ => flushed5_eq m c t) cover5

/-- The run, read: the result at the kernel's arrangement of the arguments, the arguments unchanged. -/
theorem run : θ_run defs (onTc (τ := τ) (main (F := Ideal))) ⟨m, fun _ => 0, ρ⟩ (fun r => ∀ c : Dev nD,
      r.2.mem ((c.tc : Thread nD τ).loc main_v2) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (final5 m c),
      ((h c).2 main_arg0 arg0_rest).trans (V_main_arg0 m c),
      ((h c).2 main_arg1 arg1_rest).trans (V_main_arg1 m c),
      ((h c).1 3).trans (((dats m 0 c).arrAt_in 3 rfl _).trans ((A_eq m c 3).trans (V_main_arg2 m c))),
      ((h c).1 4).trans (((dats m 0 c).arrAt_in 4 rfl _).trans ((A_eq m c 4).trans (V_main_arg3 m c)))⟩) (run_main m ρ)

end Cert.KernelIdeal.Hand

end
-- ==== Proof.RefValue.lean ====
import proofs.«143016_j6451040878946_1_alg».proof.Proof.Gen.ReferenceIdeal.Read
import proofs.«143016_j6451040878946_1_alg».proof.Proof.Spec

/-
  The reference's result read at one output entry.

  At the entry (b, n, j, k) the reference's last operation is a sum over the three coordinates c, started from the
  constant zero, of the product ((A[b,n,c,k] + C[b,j,c,k]) + bias[k]) * dist[b,n,j,c]. Here A is x contracted over its
  last axis with the upper 128 rows of the weight matrix, and C is x contracted with the lower 128 rows. Every operation
  between the arguments and that sum is a slice, a broadcast or a pointwise sum or product, so reading the result at
  an index composes the operations' index maps; each composite is identified, coordinate by coordinate, with the plain
  index built from b, n, j, c, k and the contracted position f.
-/

noncomputable section

namespace Cert.ReferenceIdeal.RefValue

open Idealize.ShloMosaic Idealize.ShloMosaic.ValueIdx Cert.ReferenceIdeal

/-- The reference at the entry `i = (b, n, j, k)` is the specification's reference arrangement of the three
    projections `a c = Σ_f x[b,n,c,f] · w[f,k]`, `cc c = Σ_f x[b,j,c,f] · w[128+f,k]`, the weights `dd c = d[b,n,j,c]`
    and the bias entry `bias[k]`. -/
theorem ref_apply (x0 : (⟨S8x128x3x128, .f32⟩ : BufTy).Contents (Elt Ideal)) (x1 : (⟨S8x128x128x3, .f32⟩ : BufTy).Contents (Elt Ideal))
    (x2 : (⟨S256x128, .f32⟩ : BufTy).Contents (Elt Ideal)) (x3 : (⟨S128, .f32⟩ : BufTy).Contents (Elt Ideal)) (i : S8x128x128x128.Idx) :
    Read.val_main_v15 (F := Ideal) x0 x1 x2 x3 i
      = Cert.Spec.refForm
          (fun c => ∑ f : Fin 128, x0 (ix4 (i 0) (i 1) c f) * x2 (ix2 (Cert.Spec.lo f) (i 3)))
          (fun c => ∑ f : Fin 128, x0 (ix4 (i 0) (i 2) c f) * x2 (ix2 (Cert.Spec.hi f) (i 3)))
          (fun c => x1 (ix4 (i 0) (i 1) (i 2) c))
          (x3 (ix1 (i 3))) := by
  unfold Cert.Spec.refForm
  -- the outer sum over the three coordinates, from the zero constant (the zero word is the real 0)
  rw [Read.val_main_v15_apply, Read.val_main_cst_apply]
  refine congrArg₂ (· + ·) Ideal.ofBits_zero_f32 (Finset.sum_congr rfl fun c _ => ?_)
  -- the summand: the product of the biased sum of the two projections with the broadcast distance weight,
  -- each operand read through its broadcasts down to the arguments
  rw [Read.val_main_v14_apply, Read.val_main_v11_apply, Read.val_main_v8_apply,
    Read.val_main_v6_apply, Read.val_main_v4_apply, Read.val_main_v1_apply,
    Read.val_main_v7_apply, Read.val_main_v5_apply, Read.val_main_v3_apply,
    Read.val_main_v10_apply, Read.val_main_v9_apply,
    Read.val_main_v13_apply, Read.val_main_v12_apply]
  -- the two slices of the weight matrix: rows f and 128 + f
  simp only [Read.val_main_v0_apply, Read.val_main_v2_apply]
  -- the composed index maps, coordinate by coordinate
  have e1 : ∀ f : Fin 128, Read.lidx_main_v1 (Read.idx_main_v4 (Read.idx_main_v6 (Read.idx_main_v15 i c))) f
      = ix4 (i 0) (i 1) c f := fun f => funext fun a => Fin.ext (by
    match a with | ⟨0, _⟩ => rfl | ⟨1, _⟩ => rfl | ⟨2, _⟩ => rfl | ⟨3, _⟩ => rfl)
  have e2 : ∀ f : Fin 128, Read.idx_main_v0 (Read.ridx_main_v1 (Read.idx_main_v4 (Read.idx_main_v6 (Read.idx_main_v15 i c))) f)
      = ix2 (Cert.Spec.lo f) (i 3) := fun f => funext fun a => Fin.ext (by
    match a with | ⟨0, _⟩ => rfl | ⟨1, _⟩ => rfl)
  have e3 : ∀ f : Fin 128, Read.lidx_main_v3 (Read.idx_main_v5 (Read.idx_main_v7 (Read.idx_main_v15 i c))) f
      = ix4 (i 0) (i 2) c f := fun f => funext fun a => Fin.ext (by
    match a with | ⟨0, _⟩ => rfl | ⟨1, _⟩ => rfl | ⟨2, _⟩ => rfl | ⟨3, _⟩ => rfl)
  have e4 : ∀ f : Fin 128, Read.idx_main_v2 (Read.ridx_main_v3 (Read.idx_main_v5 (Read.idx_main_v7 (Read.idx_main_v15 i c))) f)
      = ix2 (Cert.Spec.hi f) (i 3) := fun f => funext fun a => Fin.ext (by
    match a with | ⟨0, _⟩ => rfl | ⟨1, _⟩ => rfl)
  have e5 : Read.idx_main_v9 (Read.idx_main_v10 (Read.idx_main_v15 i c)) = ix1 (i 3) := funext fun a => Fin.ext (by
    match a with | ⟨0, _⟩ => rfl)
  have e6 : Read.idx_main_v12 (Read.idx_main_v13 (Read.idx_main_v15 i c)) = ix4 (i 0) (i 1) (i 2) c := funext fun a => Fin.ext (by
    match a with | ⟨0, _⟩ => rfl | ⟨1, _⟩ => rfl | ⟨2, _⟩ => rfl | ⟨3, _⟩ => rfl)
  -- at the extended reals the float sum and product are + and *
  simp only [e1, e2, e3, e4, e5, e6, Ideal.mulf_def, Ideal.addf_def]
  rfl

end Cert.ReferenceIdeal.RefValue

end
-- ==== Proof.Finite.lean ====
/-
  The precondition read back: when the printed predicate holds, every entry of each of the four inputs is a real.

  The predicate is the conjunction, over the four inputs, of "for every entry x, |x| < +∞". A conjunction of
  one-bit words is 1 exactly when each is; a reduction by "and" over all axes that is 1 had a 1 at every entry;
  and an extended real whose absolute value max(x, -x) lies strictly below ⊤ is neither ⊤ nor ⊥, so it is a real.
-/
import proofs.«143016_j6451040878946_1_alg».proof.Pre_finite_inputs
import Idealize.ShloMosaic.Lib.ReduceAll
import Idealize.ShloMosaic.Lib.ValueIdx
import Idealize.ShloMosaic.PureOps.Ideal
import Idealize.ShloMosaic.PureOps.Ideal.Laws
import Mathlib.Data.EReal.Basic

noncomputable section

namespace Cert.Finite

open Idealize.ShloMosaic Cert.Pre_finite_inputs

/-- The result shape of a reduction over all axes has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- One entry: |x| < +∞ makes x a real. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_eq_top] at h'
  unfold Ideal.cmp at h'
  induction x using EReal.rec with
  | bot => simp at h'
  | coe r => exact ⟨r, rfl⟩
  | top => simp at h'

/-- One input: the reduction by "and" of the entrywise test |x| < +∞ is 1, so every entry is a real. -/
theorem reals_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ValueIdx.ix0 = 1#1) :
    ∀ i, ∃ r : ℝ, x i = (r : EReal) := by
  intro i
  have hi := Host.reduce_andi_all _ _ hr hu ValueIdx.ix0 e i
  exact real_of_abs_lt_inf (x i) hi

theorem reals_of_pre [Cert.Pre_finite_inputs.Facts] (a0 : FVec Ideal S8x128x3x128 .f32)
    (a1 : FVec Ideal S8x128x128x3 .f32) (a2 : FVec Ideal S256x128 .f32) (a3 : FVec Ideal S128 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨reals_of_all a0 _ _ _ h0', reals_of_all a1 _ _ _ h1, reals_of_all a2 _ _ _ h2, reals_of_all a3 _ _ _ h3⟩

end Cert.Finite

end
-- ==== Proof.lean ====
/-
  The kernel computes, for every batch b and every ordered pair of nodes (i, j), the vector
    out[b,i,j,·] = Σ_c d[b,i,j,c] · ( x[b,i,c,·]·W_upper + x[b,j,c,·]·W_lower + bias ),
  where W_upper and W_lower are the upper and lower 128 rows of the weight matrix and c runs over three coordinates.
  The reference forms (x_i·W_upper + x_j·W_lower + bias) for every pair, multiplies by the distance weight and sums
  over c. The kernel instead accumulates d·(x_i·W_upper) and d·(x_j·W_lower) coordinate by coordinate and adds
  bias·(Σ_c d) at the end, one 64-row tile of i at a time. Over the reals the two are equal by distributivity; over
  the extended reals distributivity needs every term finite, which the precondition (all inputs finite) gives, since
  a finite sum of products of reals is a real.

  The three frames: each kernel program's run is its pipeline's run with the shared transposed array lent in two
  halves; the reference's is its host operations' run. Nothing was rewritten between the kernel and its
  idealization, so that conjunct is trivial.
-/
import proofs.«143016_j6451040878946_1_alg».proof.Defs
import proofs.«143016_j6451040878946_1_alg».proof.Proof.Gen.Kernel
import proofs.«143016_j6451040878946_1_alg».proof.Proof.Gen.KernelIdeal
import proofs.«143016_j6451040878946_1_alg».proof.Proof.Gen.ReferenceIdeal
import proofs.«143016_j6451040878946_1_alg».proof.Proof.Gen.Pre_finite_inputs
import proofs.«143016_j6451040878946_1_alg».proof.Proof.Gen.ReferenceIdeal.Run
import proofs.«143016_j6451040878946_1_alg».proof.Proof.Gen.ReferenceIdeal.Read
import proofs.«143016_j6451040878946_1_alg».proof.Proof.FrameRunB
import proofs.«143016_j6451040878946_1_alg».proof.Proof.KerValue
import proofs.«143016_j6451040878946_1_alg».proof.Proof.RefValue
import proofs.«143016_j6451040878946_1_alg».proof.Proof.Finite
import Idealize.ShloMosaic.Adequacy
import Idealize.ShloMosaic.Init

noncomputable section

namespace Cert.Proof

open Idealize.ShloMosaic Idealize.SL.Sem

/-- The reference's result array is the reference's arrangement of its arguments. -/
theorem ref_eq (x0 : (⟨Cert.ReferenceIdeal.S8x128x3x128, .f32⟩ : BufTy).Contents (Elt Ideal))
    (x1 : (⟨Cert.ReferenceIdeal.S8x128x128x3, .f32⟩ : BufTy).Contents (Elt Ideal))
    (x2 : (⟨Cert.ReferenceIdeal.S256x128, .f32⟩ : BufTy).Contents (Elt Ideal))
    (x3 : (⟨Cert.ReferenceIdeal.S128, .f32⟩ : BufTy).Contents (Elt Ideal)) :
    Cert.ReferenceIdeal.Read.val_main_v15 (F := Ideal) x0 x1 x2 x3 = Cert.Spec.Gref x0 x1 x2 x3 := by
  funext i
  rw [Cert.ReferenceIdeal.RefValue.ref_apply]
  rfl

theorem frame_k : Cert.frame_Kernel (hKernel := Cert.Kernel.Gen.facts) (hPre_finite_inputs := Cert.Pre_finite_inputs.Gen.facts) :=
  fun m ρ _ => Cert.Kernel.Hand.frame m ρ

theorem frame_ki : Cert.frame_KernelIdeal (hKernelIdeal := Cert.KernelIdeal.Gen.facts) (hPre_finite_inputs := Cert.Pre_finite_inputs.Gen.facts) :=
  fun m ρ _ => Cert.KernelIdeal.Hand.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end, the kernel's result at the kernel's arrangement of its arguments and the reference's at the
    reference's arrangement of arguments that agree with them; the inputs being finite, the two arrangements are one
    array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.Gk m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, ref_eq, (hagree c).1, (hagree c).2.1, (hagree c).2.2.1, (hagree c).2.2.2]
  obtain ⟨h0, h1, h2, h3⟩ := Cert.Finite.reals_of_pre _ _ _ _ (hpre c)
  exact (Cert.Spec.Gker_eq_Gref _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
